-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x128 : Shape := ⟨3, ![8192, 64, 128]⟩
abbrev S_ : Shape := ⟨0, ![]⟩

class Facts : Prop where
  bcast_S_S8192x64x128 : S_.BroadcastsInDim S8192x64x128 (![] : Fin 0 → Fin S8192x64x128.rank)
  reducesTo_S8192x64x128_S_d0_1_2 : S8192x64x128.ReducesTo [0, 1, 2] S_
  h_S_ : 0 < S_.numel

variable [Facts]

def fn {F : FTy → Type} [FloatOps F] (main_arg0 : FVec F S8192x64x128 .f32) : IVec S_ 1 :=
  let main_v0 : FVec F S8192x64x128 .f32 := Host.absf main_arg0
  let main_cst : FVec F S_ .f32 := constant S_ .f32 0x7F800000#32
  let main_v1 : FVec F S8192x64x128 .f32 := broadcastInDim S8192x64x128 ![] bcast_S_S8192x64x128 main_cst
  let main_v2 : IVec S8192x64x128 1 := cmpf .olt main_v0 main_v1
  let main_c : IVec S_ 1 := constantI S_ 1 1#1
  let main_v3 : IVec S_ 1 := (fun x v => Host.reduce IntOp.andi x v reducesTo_S8192x64x128_S_d0_1_2 h_S_) main_v2 main_c
  main_v3
-- ==== Kernel.lean ====
abbrev S8192x64x128 : Shape := ⟨3, ![8192, 64, 128]⟩
abbrev S2016 : Shape := ⟨1, ![2016]⟩
abbrev S8192x64x64 : Shape := ⟨3, ![8192, 64, 64]⟩
abbrev S256x64x128 : Shape := ⟨3, ![256, 64, 128]⟩
abbrev S256x64x64 : Shape := ⟨3, ![256, 64, 64]⟩
abbrev S_ : Shape := ⟨0, ![]⟩
abbrev S2016x1 : Shape := ⟨2, ![2016, 1]⟩
abbrev S2016x2 : Shape := ⟨2, ![2016, 2]⟩
abbrev S8192x2016 : Shape := ⟨2, ![8192, 2016]⟩

abbrev nBuf : Space → Nat
  | .hbm => 18
  | .vmem => 4
  | .smem => 0
  | _ => 0

abbrev bufTy : (tb : Table) → Fin (tcTables nBuf tb) → BufTy
  | .hbm, ⟨0, _⟩ => ⟨S8192x64x128, .f32⟩
  | .hbm, ⟨1, _⟩ => ⟨S2016, .i32⟩
  | .hbm, ⟨2, _⟩ => ⟨S2016, .i1⟩
  | .hbm, ⟨3, _⟩ => ⟨S2016, .i32⟩
  | .hbm, ⟨4, _⟩ => ⟨S2016, .i1⟩
  | .hbm, ⟨5, _⟩ => ⟨S8192x64x64, .f32⟩
  | .hbm, ⟨6, _⟩ => ⟨S_, .i32⟩
  | .hbm, ⟨7, _⟩ => ⟨S2016, .i32⟩
  | .hbm, ⟨8, _⟩ => ⟨S2016, .i32⟩
  | .hbm, ⟨9, _⟩ => ⟨S2016, .i32⟩
  | .hbm, ⟨10, _⟩ => ⟨S_, .i32⟩
  | .hbm, ⟨11, _⟩ => ⟨S2016, .i32⟩
  | .hbm, ⟨12, _⟩ => ⟨S2016, .i32⟩
  | .hbm, ⟨13, _⟩ => ⟨S2016, .i32⟩
  | .hbm, ⟨14, _⟩ => ⟨S2016x1, .i32⟩
  | .hbm, ⟨15, _⟩ => ⟨S2016x1, .i32⟩
  | .hbm, ⟨16, _⟩ => ⟨S2016x2, .i32⟩
  | .hbm, ⟨17, _⟩ => ⟨S8192x2016, .f32⟩
  | .local _ .vmem, ⟨0, _⟩ => ⟨S256x64x128, .f32⟩
  | .local _ .vmem, ⟨1, _⟩ => ⟨S256x64x128, .f32⟩
  | .local _ .vmem, ⟨2, _⟩ => ⟨S256x64x64, .f32⟩
  | .local _ .vmem, ⟨3, _⟩ => ⟨S256x64x64, .f32⟩
  | _, _ => ⟨S8192x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_c_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_4 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x64x128_S256x64x128_0_0_0 : ∀ a, (![0, 0, 0] : Fin 3 → Nat) a + S256x64x128.size a ≤ S256x64x128.size a
  h_S256x64x128 : 0 < S256x64x128.numel
  bitsLt_bf16_f32 : FTy.bits .bf16 < FTy.bits .f32
  inb_S256x64x64_S256x64x64_0_0_0 : ∀ a, (![0, 0, 0] : Fin 3 → Nat) a + S256x64x64.size a ≤ S256x64x64.size a
  h_S256x64x64 : 0 < S256x64x64.numel
  bcast_S_S2016 : S_.BroadcastsInDim S2016 (![] : Fin 0 → Fin S2016.rank)
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S256x64x128_S256x64x128_S256x64x64_2_2_1_1_0_0_wf : DotDims.WF S256x64x128 S256x64x128 S256x64x64 [2] [2] [1] [1] [0] [0]
  gather_S8192x64x64_S2016x2_S8192x2016_0_12_n_n_12_1_819211_wf : GatherDims.WF S8192x64x64 S2016x2 S8192x2016 [0] [1, 2] [] [1, 2] [] 1 ![8192, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x128.size a ≤ S8192x64x128.size a
  hwx0_0 : ∀ i : grid0.Coords, EltTy.bits .f32 = 32 ∨ (Rect.block (s := S8192x64x128) S256x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64x64.size a ≤ S8192x64x64.size a
  hwx0_1 : ∀ i : grid0.Coords, EltTy.bits .f32 = 32 ∨ (Rect.block (s := S8192x64x64) S256x64x64.size (cc0_transform_1 i) (hinb0_1 i)).WholeWords (EltTy.packing .f32)

variable [Facts₀]

def dot_S256x64x128_S256x64x128_S256x64x64_2_2_1_1_0_0 : DotDims S256x64x128 S256x64x128 S256x64x64 where
  lhsContracting := [2]
  rhsContracting := [2]
  lhsNonContracting := [1]
  rhsNonContracting := [1]
  lhsBatch := [0]
  rhsBatch := [0]
  wf := dot_S256x64x128_S256x64x128_S256x64x64_2_2_1_1_0_0_wf
def gather_S8192x64x64_S2016x2_S8192x2016_0_12_n_n_12_1_819211 : GatherDims S8192x64x64 S2016x2 S8192x2016 where
  offsetDims := [0]
  collapsedSliceDims := [1, 2]
  operandBatchingDims := []
  startIndicesBatchingDims := []
  startIndexMap := [1, 2]
  indexVectorDim := 1
  sliceSizes := ![8192, 1, 1]
  wf := gather_S8192x64x64_S2016x2_S8192x2016_0_12_n_n_12_1_819211_wf

abbrev win0_0 : Pipeline.Window sig grid0 :=
  Pipeline.Window.ofSpec (Memref.whole main_arg0) S256x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x64x128 : Shape := ⟨3, ![8192, 64, 128]⟩
abbrev S2016 : Shape := ⟨1, ![2016]⟩
abbrev S8192x64x64 : Shape := ⟨3, ![8192, 64, 64]⟩
abbrev S_ : Shape := ⟨0, ![]⟩
abbrev S2016x1 : Shape := ⟨2, ![2016, 1]⟩
abbrev S2016x2 : Shape := ⟨2, ![2016, 2]⟩
abbrev S8192x2016 : Shape := ⟨2, ![8192, 2016]⟩

abbrev nBuf : Space → Nat
  | .hbm => 18
  | .vmem => 0
  | .smem => 0
  | _ => 0

abbrev bufTy : (tb : Table) → Fin (tcTables nBuf tb) → BufTy
  | .hbm, ⟨0, _⟩ => ⟨S8192x64x128, .f32⟩
  | .hbm, ⟨1, _⟩ => ⟨S2016, .i32⟩
  | .hbm, ⟨2, _⟩ => ⟨S2016, .i1⟩
  | .hbm, ⟨3, _⟩ => ⟨S2016, .i32⟩
  | .hbm, ⟨4, _⟩ => ⟨S2016, .i1⟩
  | .hbm, ⟨5, _⟩ => ⟨S8192x64x64, .f32⟩
  | .hbm, ⟨6, _⟩ => ⟨S_, .i32⟩
  | .hbm, ⟨7, _⟩ => ⟨S2016, .i32⟩
  | .hbm, ⟨8, _⟩ => ⟨S2016, .i32⟩
  | .hbm, ⟨9, _⟩ => ⟨S2016, .i32⟩
  | .hbm, ⟨10, _⟩ => ⟨S_, .i32⟩
  | .hbm, ⟨11, _⟩ => ⟨S2016, .i32⟩
  | .hbm, ⟨12, _⟩ => ⟨S2016, .i32⟩
  | .hbm, ⟨13, _⟩ => ⟨S2016, .i32⟩
  | .hbm, ⟨14, _⟩ => ⟨S2016x1, .i32⟩
  | .hbm, ⟨15, _⟩ => ⟨S2016x1, .i32⟩
  | .hbm, ⟨16, _⟩ => ⟨S2016x2, .i32⟩
  | .hbm, ⟨17, _⟩ => ⟨S8192x2016, .f32⟩
  | _, _ => ⟨S8192x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_c_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_4 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S2016 : S_.BroadcastsInDim S2016 (![] : Fin 0 → Fin S2016.rank)
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S8192x64x128_S8192x64x128_S8192x64x64_2_2_1_1_0_0_wf : DotDims.WF S8192x64x128 S8192x64x128 S8192x64x64 [2] [2] [1] [1] [0] [0]
  gather_S8192x64x64_S2016x2_S8192x2016_0_12_n_n_12_1_819211_wf : GatherDims.WF S8192x64x64 S2016x2 S8192x2016 [0] [1, 2] [] [1, 2] [] 1 ![8192, 1, 1]

variable [Facts₀]

def dot_S8192x64x128_S8192x64x128_S8192x64x64_2_2_1_1_0_0 : DotDims S8192x64x128 S8192x64x128 S8192x64x64 where
  lhsContracting := [2]
  rhsContracting := [2]
  lhsNonContracting := [1]
  rhsNonContracting := [1]
  lhsBatch := [0]
  rhsBatch := [0]
  wf := dot_S8192x64x128_S8192x64x128_S8192x64x64_2_2_1_1_0_0_wf
def gather_S8192x64x64_S2016x2_S8192x2016_0_12_n_n_12_1_819211 : GatherDims S8192x64x64 S2016x2 S8192x2016 where
  offsetDims := [0]
  collapsedSliceDims := [1, 2]
  operandBatchingDims := []
  startIndicesBatchingDims := []
  startIndexMap := [1, 2]
  indexVectorDim := 1
  sliceSizes := ![8192, 1, 1]
  wf := gather_S8192x64x64_S2016x2_S8192x2016_0_12_n_n_12_1_819211_wf

class Facts : Prop extends Facts₀ where

variable [Facts]
-- ==== Proof.RefRun.lean ====
/-
  The reference program read back as a function of its argument.

  The reference is a straight line of seventeen host operations: two tables of 2016 integers (the row and the
  column of every strictly-lower-triangular position of a 64 × 64 matrix, row-major), the batched product
  `x[b] · x[b]ᵀ` as one `dot_general` (batch axis 0, contraction over the feature axis), the index
  normalisation jnp emits for a static gather (add 64 where an index is negative: the mask is the constant
  `false`, so every index is kept), the two index columns laid side by side, and the gather of the 2016
  positions from every batch's 64 × 64 matrix.

  `pick` names everything after the product as ONE function of the 8192 × 64 × 64 array; `run` says every
  weakly fair execution ends with the result at `pick` of the product and the argument unchanged.
-/
import proofs.«174566_j11974368821390_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's seventeen operations, in order. -/
abbrev ops : List (HloOp τ sig (Elt F)) :=
  [ nullary main_c (fun i => lit0 (S2016.rowMajor i)),
    nullary main_c_0 (constantI S2016 1 0#1),
    nullary main_c_1 (fun i => lit1 (S2016.rowMajor i)),
    nullary main_c_2 (constantI S2016 1 0#1),
    binary main_arg0 main_arg0 main_v0 ((fun l r => Host.dotGeneral dot_S8192x64x128_S8192x64x128_S8192x64x64_2_2_1_1_0_0 none l r) : (⟨S8192x64x128, .f32⟩ : BufTy).Contents (Elt F) → (⟨S8192x64x128, .f32⟩ : BufTy).Contents (Elt F) → (⟨S8192x64x64, .f32⟩ : BufTy).Contents (Elt F)),
    nullary main_c_3 (constantI S_ 32 64#32),
    unary main_c_3 main_v1 (broadcastInDim S2016 ![] bcast_S_S2016 : (⟨S_, .i32⟩ : BufTy).Contents (Elt F) → (⟨S2016, .i32⟩ : BufTy).Contents (Elt F)),
    binary main_c main_v1 main_v2 (addi : (⟨S2016, .i32⟩ : BufTy).Contents (Elt F) → (⟨S2016, .i32⟩ : BufTy).Contents (Elt F) → (⟨S2016, .i32⟩ : BufTy).Contents (Elt F)),
    ternary main_c_0 main_v2 main_c main_v3 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_4 (constantI S_ 32 64#32),
    unary main_c_4 main_v4 (broadcastInDim S2016 ![] bcast_S_S2016 : (⟨S_, .i32⟩ : BufTy).Contents (Elt F) → (⟨S2016, .i32⟩ : BufTy).Contents (Elt F)),
    binary main_c_1 main_v4 main_v5 (addi : (⟨S2016, .i32⟩ : BufTy).Contents (Elt F) → (⟨S2016, .i32⟩ : BufTy).Contents (Elt F) → (⟨S2016, .i32⟩ : BufTy).Contents (Elt F)),
    ternary main_c_2 main_v5 main_c_1 main_v6 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v3 main_v7 (broadcastInDim S2016x1 ![0] bcast_S2016_S2016x1_0 : (⟨S2016, .i32⟩ : BufTy).Contents (Elt F) → (⟨S2016x1, .i32⟩ : BufTy).Contents (Elt F)),
    unary main_v6 main_v8 (broadcastInDim S2016x1 ![0] bcast_S2016_S2016x1_0 : (⟨S2016, .i32⟩ : BufTy).Contents (Elt F) → (⟨S2016x1, .i32⟩ : BufTy).Contents (Elt F)),
    binary main_v7 main_v8 main_v9 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    binary main_v0 main_v9 main_v10 ((fun x i => Host.gather gather_S8192x64x64_S2016x2_S8192x2016_0_12_n_n_12_1_819211 x i) : (⟨S8192x64x64, .f32⟩ : BufTy).Contents (Elt F) → (⟨S2016x2, .i32⟩ : BufTy).Contents (Elt F) → (⟨S8192x2016, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., binary_bufs_sub .., nullary_bufs_sub ..,
    unary_bufs_sub .., binary_bufs_sub .., ternary_bufs_sub .., nullary_bufs_sub .., unary_bufs_sub .., binary_bufs_sub ..,
    ternary_bufs_sub .., unary_bufs_sub .., unary_bufs_sub .., binary_bufs_sub .., binary_bufs_sub ..⟩

/-- One index column: a table of 2016 entries, 64 added where the mask says the entry is negative (the mask is
    the constant `false`), as a 2016 × 1 array. -/
def column (tbl : Fin 2016 → BitVec 32) : IVec S2016x1 32 :=
  broadcastInDim S2016x1 ![0] bcast_S2016_S2016x1_0
    (select (constantI S2016 1 0#1)
      (addi (fun i => tbl (S2016.rowMajor i)) (broadcastInDim S2016 ![] bcast_S_S2016 (constantI S_ 32 64#32)))
      (fun i => tbl (S2016.rowMajor i)))

/-- Everything after the product: position `p` of every batch's result is the matrix entry at (row table `p`,
    column table `p`). -/
def pick (g : FVec F S8192x64x64 .f32) : FVec F S8192x2016 .f32 :=
  Host.gather gather_S8192x64x64_S2016x2_S8192x2016_0_12_n_n_12_1_819211 g
    (concatenate S2016x2 1 [⟨S2016x1, column lit0⟩, ⟨S2016x1, column lit1⟩] concatenates_S2016x1_S2016x1_S2016x2_d1)

/-- On every device, from any memory with zero counters: every weakly fair execution of @main terminates with the
    result at `pick` of the batched product of the argument with itself, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
          = pick (Host.dotGeneral dot_S8192x64x128_S8192x64x128_S8192x64x64_2_2_1_1_0_0 none
              (m ((c.tc : Thread nD τ).loc main_arg0)) (m ((c.tc : Thread nD τ).loc main_arg0)))
      ∧ r.2.mem ((c.tc : Thread nD τ).loc main_arg0) = m ((c.tc : Thread nD τ).loc main_arg0) :=
  (θ_run defs _ _).mono (fun _ h c => ⟨(h c main_v10).trans (by after_results; rfl),
      (h c main_arg0).trans (by after_results)⟩)
    (run_seq scopedRefs_eq scopedSems_eq defs main (fun _ => ops) main_eq (fun _ => ops_sub) m ρ)

end Cert.ReferenceIdeal.HostRun

end
-- ==== Proof.Gram.lean ====
/-
  The mathematics both programs compute before the gather: for every batch `b` the Gram matrix of the 64 feature
  rows of `x[b]`, entry (k, l) the inner product `∑ d, x[b,k,d] · x[b,l,d]` over the 128 features, on the
  extended reals.

  A batched matrix product whose dimension numbers make axis 0 the batch axis of both operands, axis 1 the free
  axis of both and axis 2 the contracted axis of both reads, at the output index (b, k, l), the left operand at
  (b, k, d) and the right operand at (b, l, d), `d` the contraction position. `sum_contr` says so once, for any
  batch extent and for any record of dimension numbers whose operand indices have those six coordinates; the
  kernel's 256-batch block product and the reference's 8192-batch product are its two instances.
-/
import Idealize.ShloMosaic.PureOps.Ideal.Laws
import Idealize.ShloMosaic.Lib.ValueIdx

noncomputable section

open scoped BigOperators

namespace Cert.Gram

open Idealize.ShloMosaic Idealize.ShloMosaic.ValueIdx

/-- The Gram matrices of a stack of `B` matrices of 64 rows and 128 columns: entry (b, k, l) is row `k` of
    matrix `b` against its row `l`. -/
def gram {B : Nat} (x : FVec Ideal ⟨3, ![B, 64, 128]⟩ .f32) : FVec Ideal ⟨3, ![B, 64, 64]⟩ .f32 :=
  fun i => ∑ d : Fin 128, x (ix3 (i 0) (i 1) d) * x (ix3 (i 0) (i 2) d)

/-- A contraction sum over dimension numbers with batch axis 0, free axis 1 and contracted axis 2 on both sides,
    re-indexed by the one contraction coordinate. -/
theorem sum_contr {B : Nat} {φ₁ φ₂ : FTy}
    (D : DotDims ⟨3, ![B, 64, 128]⟩ ⟨3, ![B, 64, 128]⟩ ⟨3, ![B, 64, 64]⟩)
    (hr : D.contr.rank = 1) (hs : D.contr.size ⟨0, by omega⟩ = 128)
    (hl0 : ∀ j k, (D.lhsIdx j k (0 : Fin 3)).val = (j (0 : Fin 3)).val)
    (hl1 : ∀ j k, (D.lhsIdx j k (1 : Fin 3)).val = (j (1 : Fin 3)).val)
    (hl2 : ∀ j k, (D.lhsIdx j k (2 : Fin 3)).val = (k ⟨0, by omega⟩).val)
    (hr0 : ∀ j k, (D.rhsIdx j k (0 : Fin 3)).val = (j (0 : Fin 3)).val)
    (hr1 : ∀ j k, (D.rhsIdx j k (1 : Fin 3)).val = (j (2 : Fin 3)).val)
    (hr2 : ∀ j k, (D.rhsIdx j k (2 : Fin 3)).val = (k ⟨0, by omega⟩).val)
    (x : FVec Ideal ⟨3, ![B, 64, 128]⟩ φ₁) (y : FVec Ideal ⟨3, ![B, 64, 128]⟩ φ₂)
    (j : (⟨3, ![B, 64, 64]⟩ : Shape).Idx) :
    ∑ q : D.contr.Idx, x (D.lhsIdx j q) * y (D.rhsIdx j q)
      = ∑ d : Fin 128, x (ix3 (j 0) (j 1) d) * y (ix3 (j 0) (j 2) d) := by
  rw [← Equiv.sum_comp (contrEquiv1 D 128 hr hs).symm]
  refine Finset.sum_congr rfl fun d _ => ?_
  have hd : (((contrEquiv1 D 128 hr hs).symm d) ⟨0, by omega⟩ : ℕ) = d.val := contrEquiv1_symm_val D 128 hr hs d
  have el : D.lhsIdx j ((contrEquiv1 D 128 hr hs).symm d) = ix3 (j 0) (j 1) d := by
    funext a; apply Fin.ext
    match a with
    | ⟨0, _⟩ => exact hl0 _ _
    | ⟨1, _⟩ => exact hl1 _ _
    | ⟨2, _⟩ => exact (hl2 _ _).trans hd
  have er : D.rhsIdx j ((contrEquiv1 D 128 hr hs).symm d) = ix3 (j 0) (j 2) d := by
    funext a; apply Fin.ext
    match a with
    | ⟨0, _⟩ => exact hr0 _ _
    | ⟨1, _⟩ => exact hr1 _ _
    | ⟨2, _⟩ => exact (hr2 _ _).trans hd
  exact congrArg₂ (fun a b => a * b) (congrArg x el) (congrArg y er)

end Cert.Gram

end
-- ==== Proof.RefDot.lean ====
/-
  The reference's product is the Gram matrix: jnp's `einsum("bkd,bld->bkl", x, x)` is one `dot_general` with
  batch axis 0 and the feature axis 2 contracted on both sides, which on the extended reals is, at (b, k, l), the
  sum over the 128 features of `x[b,k,d] · x[b,l,d]`.
-/
import proofs.«174566_j11974368821390_1_alg».proof.Proof.Gen.ReferenceIdeal
import proofs.«174566_j11974368821390_1_alg».proof.Proof.Gram

noncomputable section

namespace Cert.ReferenceIdeal.HostDot

open Cert.ReferenceIdeal Cert.ReferenceIdeal.Gen Idealize.ShloMosaic Idealize.ShloMosaic.ValueIdx

/-- The host's batched product of the argument with itself is its stack of Gram matrices. -/
theorem product_eq (x : FVec Ideal S8192x64x128 .f32) :
    Host.dotGeneral (F := Ideal) dot_S8192x64x128_S8192x64x128_S8192x64x64_2_2_1_1_0_0 none x x
      = Cert.Gram.gram (B := 8192) x := by
  funext j
  simp only [Host.dotGeneral]
  rw [Ideal.dotGeneral_apply]
  exact Cert.Gram.sum_contr dot_S8192x64x128_S8192x64x128_S8192x64x64_2_2_1_1_0_0 rfl rfl
    (fun _ _ => rfl) (fun _ _ => rfl) (fun _ _ => rfl) (fun _ _ => rfl) (fun _ _ => rfl) (fun _ _ => rfl) x x j

end Cert.ReferenceIdeal.HostDot

end
-- ==== Proof.KernelPay.lean ====
/-
  What the kernel body stores, at one entry of its 256 × 64 × 64 output block: the block of 256 input matrices is
  narrowed to bf16 (no change on the extended reals) and multiplied with itself into a zero accumulator, batch axis
  0, the feature axis contracted on both sides; so entry (b, k, l) of the stored block is the sum over the 128
  features of `x[b,k,d] · x[b,l,d]` of the loaded block `x`: the block's stack of Gram matrices.
-/
import proofs.«174566_j11974368821390_1_alg».proof.Proof.Gen.KernelIdeal.Skeleton
import proofs.«174566_j11974368821390_1_alg».proof.Proof.Gram

noncomputable section

namespace Cert.KernelIdeal.BlockGram

open Cert.KernelIdeal Cert.KernelIdeal.Gen Idealize.ShloMosaic Idealize.ShloMosaic.ValueIdx

/-- The body's one stored value is the Gram stack of the block it loaded. -/
theorem payload_eq (x0 : Vec Ideal S256x64x128 .f32) :
    k0_pay1 (F := Ideal) x0 = Cert.Gram.gram (B := 256) x0 := by
  funext j
  unfold k0_pay1
  simp only [matmul]
  rw [Ideal.matmul_constant_zero_apply]
  exact Cert.Gram.sum_contr dot_S256x64x128_S256x64x128_S256x64x64_2_2_1_1_0_0 rfl rfl
    (fun _ _ => rfl) (fun _ _ => rfl) (fun _ _ => rfl) (fun _ _ => rfl) (fun _ _ => rfl) (fun _ _ => rfl) _ _ j

end Cert.KernelIdeal.BlockGram

end
-- ==== Proof.KernelValue.lean ====
/-
  The kernel's output array after the region, as one function of the argument.

  The grid has 32 points; point `t` fetches batches `256 t … 256 t + 255` of the argument (all 64 rows, all 128
  features) and writes back the same batches of the 8192 × 64 × 64 output (all rows, all columns). The body stores
  the Gram stack of the block it loaded, so what point `t` writes back is block `t` of the Gram stack of the whole
  argument: entry (b, k, l) of a block only reads batch `b` of the input. The 32 blocks tile the output (batch `b`
  lies in block `b / 256`), so after the region the output array IS the Gram stack of the argument.
-/
import proofs.«174566_j11974368821390_1_alg».proof.Proof.Gen.KernelIdeal.Frame
import proofs.«174566_j11974368821390_1_alg».proof.Proof.KernelPay
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.GramValue

open Cert.KernelIdeal Cert.KernelIdeal.Gen

variable (m : (ℓ : Loc nD τ sig) → Buf (Elt Ideal) ℓ) (ρ : Dev nD → PrngReg)

theorem hz : (![0, 0, 0] : Fin 3 → Nat) = fun _ => 0 := funext fun a => by fin_cases a <;> rfl

/-- The argument as the region finds it, at its literal type. -/
abbrev xarr (c : Dev nD) : FVec Ideal S8192x64x128 .f32 := V m c main_arg0
/-- The input block of point `t`, at its literal type. -/
abbrev xblk (c : Dev nD) (t : Fin cfg0.N) : Vec Ideal S256x64x128 .f32 := iblk m c 0 t

/-- Both index maps send point `t` to block (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The input block of point `t` is batches `256 t …` of the argument. -/
theorem xblk_apply (c : Dev nD) (t : Fin cfg0.N) (y : S256x64x128.Idx) (i : S8192x64x128.Idx)
    (h0 : (i 0).val = 256 * t.val + (y 0).val) (h1 : (i 1).val = (y 1).val) (h2 : (i 2).val = (y 2).val) :
    xblk m c t y = xarr m c i := by
  obtain ⟨e0, e1, e2, -, -, -⟩ := idx_facts t
  unfold xblk xarr iblk
  rw [View.read_apply]
  show V m c main_arg0 _ = V m c main_arg0 _
  congr 1
  funext a
  apply Fin.ext
  match a with
  | ⟨0, _⟩ => show win0_0.index t (0 : Fin 3) * 256 + 1 * (y 0).val = (i 0).val; rw [e0, h0]; omega
  | ⟨1, _⟩ => show win0_0.index t (1 : Fin 3) * 64 + 1 * (y 1).val = (i 1).val; rw [e1, h1]; omega
  | ⟨2, _⟩ => show win0_0.index t (2 : Fin 3) * 128 + 1 * (y 2).val = (i 2).val; rw [e2, h2]; omega

/-- WHAT POINT `t` WRITES BACK is block `t` of the Gram stack of the argument. -/
theorem flushed_eq (c : Dev nD) (t : Fin cfg0.N) :
    (dats m 0 c).flushed 1 t = ((cfg0.win 1).blk t).view.read (Elt Ideal) (Cert.Gram.gram (B := 8192) (xarr m c)) := by
  show (cfg0.win 1).cut (grid0.coords t) ((dats m 0 c).after 1 t) = _
  rw [after0_1]
  unfold out0_1
  rw [View.canon_unit_zero hz]
  simp only [View.ld_unit_zero (S := S256x64x128) hz]
  rw [Cert.KernelIdeal.BlockGram.payload_eq]
  obtain ⟨-, -, -, e0, e1, e2⟩ := idx_facts t
  funext y
  show Cert.Gram.gram (B := 256) (xblk m c t) y
    = Cert.Gram.gram (B := 8192) (xarr m c) (((cfg0.win 1).blk t).view.emb y)
  have E0 : ((((cfg0.win 1).blk t).view.emb y) (0 : Fin 3)).val = 256 * t.val + (y (0 : Fin 3)).val := by
    show win0_1.index t (0 : Fin 3) * 256 + 1 * (y (0 : Fin 3)).val = _; rw [e0]; omega
  have E1 : ((((cfg0.win 1).blk t).view.emb y) (1 : Fin 3)).val = (y (1 : Fin 3)).val := by
    show win0_1.index t (1 : Fin 3) * 64 + 1 * (y (1 : Fin 3)).val = _; rw [e1]; omega
  have E2 : ((((cfg0.win 1).blk t).view.emb y) (2 : Fin 3)).val = (y (2 : Fin 3)).val := by
    show win0_1.index t (2 : Fin 3) * 64 + 1 * (y (2 : Fin 3)).val = _; rw [e2]; omega
  unfold Cert.Gram.gram
  refine Finset.sum_congr rfl fun d _ => ?_
  rw [xblk_apply m c t (ix3 (y 0) (y 1) d) (ix3 ((((cfg0.win 1).blk t).view.emb y) 0) ((((cfg0.win 1).blk t).view.emb y) 1) d) E0 E1 rfl,
    xblk_apply m c t (ix3 (y 0) (y 2) d) (ix3 ((((cfg0.win 1).blk t).view.emb y) 0) ((((cfg0.win 1).blk t).view.emb y) 2) d) E0 E2 rfl]

/-- An index of the output array is in point `t`'s block iff each coordinate is in the block's range on its axis. -/
theorem mem_blk (t : Fin cfg0.N) (i : S8192x64x64.Idx) :
    i ∈ ((cfg0.win 1).blk t).view.set ↔ ∀ a : Fin 3, win0_1.index t a * S256x64x64.size a ≤ (i a).val
      ∧ (i a).val < win0_1.index t a * S256x64x64.size a + S256x64x64.size a := by
  show i ∈ ((View.whole main_v0).slice (win0_1.rect t)).set ↔ _
  rw [View.set_slice_whole, Rect.mem_set_unit]
  exact Iff.rfl

/-- The 32 blocks tile the output: batch `b` lies in the block of point `b / 256`. -/
theorem cover (i : S8192x64x64.Idx) :
    ∃ t : Fin cfg0.N, (cfg0.win 1).flush t = true ∧ i ∈ ((cfg0.win 1).blk t).view.set := by
  have hi0 : (i (0 : Fin 3)).val < 8192 := (i 0).isLt
  have hi1 : (i (1 : Fin 3)).val < 64 := (i 1).isLt
  have hi2 : (i (2 : Fin 3)).val < 64 := (i 2).isLt
  have hN : cfg0.N = 32 := N_0
  let t : Fin cfg0.N := ⟨(i (0 : Fin 3)).val / 256, by rw [hN]; omega⟩
  have ht : t.val = (i (0 : Fin 3)).val / 256 := rfl
  refine ⟨t, flush0_1 t, ?_⟩
  obtain ⟨-, -, -, e0, e1, e2⟩ := idx_facts t
  rw [mem_blk]
  intro a
  match a with
  | ⟨0, _⟩ =>
    show win0_1.index t (0 : Fin 3) * 256 ≤ (i (0 : Fin 3)).val ∧ (i (0 : Fin 3)).val < win0_1.index t (0 : Fin 3) * 256 + 256
    rw [e0, ht]; omega
  | ⟨1, _⟩ =>
    show win0_1.index t (1 : Fin 3) * 64 ≤ (i (1 : Fin 3)).val ∧ (i (1 : Fin 3)).val < win0_1.index t (1 : Fin 3) * 64 + 64
    rw [e1]; omega
  | ⟨2, _⟩ =>
    show win0_1.index t (2 : Fin 3) * 64 ≤ (i (2 : Fin 3)).val ∧ (i (2 : Fin 3)).val < win0_1.index t (2 : Fin 3) * 64 + 64
    rw [e2]; omega

/-- THE OUTPUT ARRAY after the region is the Gram stack of the argument as launched. -/
theorem final (c : Dev nD) :
    (dats m 0 c).arrAt 1 cfg0.N = Cert.Gram.gram (B := 8192) (m ((c : Thread nD τ).loc main_arg0)) := by
  have h := (dats m 0 c).arrAt_eq_of_cover 1 (Cert.Gram.gram (B := 8192) (xarr m c)) (fun t _ => flushed_eq m c t) cover
  rw [h]
  unfold xarr
  rw [V_main_arg0]

end Cert.KernelIdeal.GramValue

end
-- ==== Proof.KernelTail.lean ====
/-
  What the kernel's program does after the region, as one function of the region's output array.

  Before the region the program writes four constants (the table of rows and the table of columns of the 2016
  strictly-lower-triangular positions, and two all-`false` masks); the region does not touch them. After it come
  twelve host operations: 64 is added to each table where its mask is set (nowhere), the two tables become the two
  columns of a 2016 × 2 index array, and the gather reads position `p` of every batch from the region's output at
  (row table `p`, column table `p`). `pick` is that function of the output array; `tail_eq` reads the program's
  result off the buffers as the region leaves them: the output array at what the region computed, every constant as
  it was written before the region.
-/
import proofs.«174566_j11974368821390_1_alg».proof.Proof.Gen.KernelIdeal.Frame
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- One index column: a table of 2016 entries, 64 added where the mask says the entry is negative (the mask is
    the constant `false`), as a 2016 × 1 array. -/
def column (tbl : Fin 2016 → BitVec 32) : IVec S2016x1 32 :=
  broadcastInDim S2016x1 ![0] bcast_S2016_S2016x1_0
    (select (constantI S2016 1 0#1)
      (addi (fun i => tbl (S2016.rowMajor i)) (broadcastInDim S2016 ![] bcast_S_S2016 (constantI S_ 32 64#32)))
      (fun i => tbl (S2016.rowMajor i)))

/-- Everything after the region: position `p` of every batch's result is the matrix entry at (row table `p`,
    column table `p`). -/
def pick (g : FVec F S8192x64x64 .f32) : FVec F S8192x2016 .f32 :=
  Host.gather gather_S8192x64x64_S2016x2_S8192x2016_0_12_n_n_12_1_819211 g
    (concatenate S2016x2 1 [⟨S2016x1, column lit0⟩, ⟨S2016x1, column lit1⟩] concatenates_S2016x1_S2016x1_S2016x2_d1)

section Exit

variable (c : Dev nD) (A : (w : Fin 2) → Buf (Elt F) (((cfgs 0).spec w).arr.view.loc (c.tc : Thread nD τ)))

/-- At the region's exit the output array holds what the region computed. -/
theorem exit_v0 : Pipeline.withArrays (cfgs 0).spec c (V0 m c) A (Proc.devRef .tc main_v0) = A 1 :=
  Pipeline.withArrays_arr spec0 launch0.win.arr_inj c _ _ 1

/-- The table of rows is as written before the region. -/
theorem exit_c : Pipeline.withArrays (cfgs 0).spec c (V0 m c) A (Proc.devRef .tc main_c)
    = (fun i => lit0 (S2016.rowMajor i) : IVec S2016 32) := by
  rw [Pipeline.withArrays_of_ne spec0 c (V0 m c) A main_c (by decide)]
  show StableHlo.after hostOps0 (fun b => m (c, b)) (Proc.devRef .tc main_c) = _
  after_results
  rfl

/-- The table of columns is as written before the region. -/
theorem exit_c_1 : Pipeline.withArrays (cfgs 0).spec c (V0 m c) A (Proc.devRef .tc main_c_1)
    = (fun i => lit1 (S2016.rowMajor i) : IVec S2016 32) := by
  rw [Pipeline.withArrays_of_ne spec0 c (V0 m c) A main_c_1 (by decide)]
  show StableHlo.after hostOps0 (fun b => m (c, b)) (Proc.devRef .tc main_c_1) = _
  after_results
  rfl

/-- The rows' mask is as written before the region. -/
theorem exit_c_0 : Pipeline.withArrays (cfgs 0).spec c (V0 m c) A (Proc.devRef .tc main_c_0)
    = (constantI S2016 1 0#1 : IVec S2016 1) := by
  rw [Pipeline.withArrays_of_ne spec0 c (V0 m c) A main_c_0 (by decide)]
  show StableHlo.after hostOps0 (fun b => m (c, b)) (Proc.devRef .tc main_c_0) = _
  after_results

/-- The columns' mask is as written before the region. -/
theorem exit_c_2 : Pipeline.withArrays (cfgs 0).spec c (V0 m c) A (Proc.devRef .tc main_c_2)
    = (constantI S2016 1 0#1 : IVec S2016 1) := by
  rw [Pipeline.withArrays_of_ne spec0 c (V0 m c) A main_c_2 (by decide)]
  show StableHlo.after hostOps0 (fun b => m (c, b)) (Proc.devRef .tc main_c_2) = _
  after_results

end Exit

/-- The program's result after the lines that follow the region is `pick` of the region's output array. -/
theorem tail_eq (c : Dev nD) :
    Pipeline.afterTail₀ cfgs (dats m) 0 (V0 m) [hostOps1] c main_v10 = pick ((dats m 0 c).arrAt 1 cfg0.N) := by
  unfold Pipeline.afterTail₀
  show StableHlo.after hostOps1 _ (Proc.devRef .tc main_v10) = _
  after_results
  rw [exit_v0, exit_c, exit_c_0, exit_c_1, exit_c_2]
  rfl

end Cert.KernelIdeal.Tail

end
-- ==== Proof.KernelRun.lean ====
/-
  The idealized kernel's whole run, read: every weakly fair execution ends with the program's result at the gather
  (`pick`) of the Gram stack of the argument, and the argument unchanged. The region's output array is the Gram
  stack (the 32 write-backs tile it); the lines after the region apply `pick` to that array; the argument is an
  input window's array, which the region leaves as it found it.
-/
import proofs.«174566_j11974368821390_1_alg».proof.Proof.KernelValue
import proofs.«174566_j11974368821390_1_alg».proof.Proof.KernelTail

noncomputable section

open Idealize.ShloMosaic Idealize.ShloMosaic.TcCoe Idealize.SL.Sem

namespace Cert.KernelIdeal.Run

open Cert.KernelIdeal Cert.KernelIdeal.Gen

variable (m : (ℓ : Loc nD τ sig) → Buf (Elt Ideal) ℓ) (ρ : Dev nD → PrngReg)

/-- The program's result is no array of the pipeline and is not scoped: the frame run reads it back as the lines
    after the region leave it. -/
theorem result_bypasses : main_v10 ∈ Pipeline.restRefs sig (cfgs 0).spec :=
  Pipeline.mem_restRefs_of main_v10 rfl (by decide)

theorem run : θ_run defs (onTc (τ := τ) (main (F := Ideal))) ⟨m, fun _ => 0, ρ⟩ fun r => ∀ c : Dev nD,
      r.2.mem ((c.tc : Thread nD τ).loc main_v10)
          = Cert.KernelIdeal.Tail.pick (Cert.Gram.gram (B := 8192) (m ((c.tc : Thread nD τ).loc main_arg0)))
      ∧ r.2.mem ((c.tc : Thread nD τ).loc main_arg0) = m ((c.tc : Thread nD τ).loc main_arg0) :=
  (θ_run defs _ _).mono (fun _ h c =>
      ⟨(((h c).2 main_v10 result_bypasses).trans (Cert.KernelIdeal.Tail.tail_eq m c)).trans
          (congrArg Cert.KernelIdeal.Tail.pick (Cert.KernelIdeal.GramValue.final m c)),
        ((h c).1 0).trans (((dats m 0 c).arrAt_in 0 rfl _).trans ((A_eq m c 0).trans (V_main_arg0 m c)))⟩)
    (run_main m ρ)

end Cert.KernelIdeal.Run

end
-- ==== Proof.lean ====
/-
  The kernel computes, for each of 8192 batches, the 64 × 64 matrix of inner products of the batch's 64 feature
  rows (128 features each), 256 batches per grid point, feeding the matrix unit with the rows narrowed to bf16 and
  accumulating in f32; the program then gathers the 2016 strictly-lower-triangular entries of every batch's matrix.
  The reference takes the same inner products with one batched `dot_general` and gathers the same entries.

  On the extended reals narrowing is the identity and both products are, at (b, k, l), the sum over the 128
  features of `x[b,k,d] · x[b,l,d]` (`Cert.Gram.gram`): the same sum in the same order, so no law of arithmetic
  and no finiteness of the input is used. The two gathers are built from the same two tables of 2016 positions by
  the same operations, so they are one function of the matrix stack. The ideal pass rewrote nothing, so the
  idealization claim is trivial. The kernel's two frames are the generated frame certificates; the reference's
  frame is its run with the result dropped.
-/
import proofs.«174566_j11974368821390_1_alg».proof.Defs
import proofs.«174566_j11974368821390_1_alg».proof.Proof.Gen.Kernel
import proofs.«174566_j11974368821390_1_alg».proof.Proof.Gen.Kernel.Frame
import proofs.«174566_j11974368821390_1_alg».proof.Proof.Gen.KernelIdeal
import proofs.«174566_j11974368821390_1_alg».proof.Proof.Gen.KernelIdeal.Frame
import proofs.«174566_j11974368821390_1_alg».proof.Proof.Gen.ReferenceIdeal
import proofs.«174566_j11974368821390_1_alg».proof.Proof.Gen.Pre_finite_inputs
import proofs.«174566_j11974368821390_1_alg».proof.Proof.RefRun
import proofs.«174566_j11974368821390_1_alg».proof.Proof.RefDot
import proofs.«174566_j11974368821390_1_alg».proof.Proof.KernelRun

noncomputable section

namespace Cert.Proof

open Idealize.ShloMosaic Idealize.SL.Sem

/-- The gather after the kernel's region and the gather after the reference's product are one function: the same
    two tables, the same index arithmetic, the same dimension numbers. -/
theorem pick_eq (g : FVec Ideal Cert.KernelIdeal.S8192x64x64 .f32) :
    Cert.KernelIdeal.Tail.pick (F := Ideal) g = Cert.ReferenceIdeal.HostRun.pick (F := Ideal) g := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HostRun.run (F := Ideal) m ρ)

/-- Both programs end at the gather of the Gram stack of the (shared) argument. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.HostRun.run (F := Ideal) m' ρ')
  rw [Cert.ReferenceIdeal.HostDot.product_eq, hagree c]
  exact (pick_eq _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
